-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S64x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S1024x8192 : Shape := ⟨2, ![1024, 8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel

variable [Facts]

def fn {F : FTy → Type} [FloatOps F] (main_arg0 : FVec F S64x8192 .f32) (main_arg1 : IVec S1024x8192 32) (main_arg2 : FVec F S64x8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S64x8192 .f32 := Host.absf main_arg2
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  main_v8
-- ==== Kernel.lean ====
abbrev S64x8192 : Shape := ⟨2, ![64, 8192]⟩
abbrev S1024x8192 : Shape := ⟨2, ![1024, 8192]⟩
abbrev S64x1024 : Shape := ⟨2, ![64, 1024]⟩
abbrev S128x2048 : Shape := ⟨2, ![128, 2048]⟩
abbrev S8x2048 : Shape := ⟨2, ![8, 2048]⟩
abbrev S64x2048 : Shape := ⟨2, ![64, 2048]⟩
abbrev S1x8 : Shape := ⟨2, ![1, 8]⟩
abbrev S8 : Shape := ⟨1, ![8]⟩
abbrev S1x8x1 : Shape := ⟨3, ![1, 8, 1]⟩
abbrev S128x1x2048 : Shape := ⟨3, ![128, 1, 2048]⟩
abbrev S128x8x2048 : Shape := ⟨3, ![128, 8, 2048]⟩
abbrev S1024x2048 : Shape := ⟨2, ![1024, 2048]⟩
abbrev S8x128x2048 : Shape := ⟨3, ![8, 128, 2048]⟩
abbrev S64x8x128 : Shape := ⟨3, ![64, 8, 128]⟩
abbrev S1x128x2048 : Shape := ⟨3, ![1, 128, 2048]⟩
abbrev S64x1x128 : Shape := ⟨3, ![64, 1, 128]⟩
abbrev S64x128 : Shape := ⟨2, ![64, 128]⟩
abbrev S1x2048 : Shape := ⟨2, ![1, 2048]⟩
abbrev S2048 : Shape := ⟨1, ![2048]⟩

abbrev nBuf : Space → Nat
  | .hbm => 4
  | .vmem => 9
  | .smem => 0
  | _ => 0

abbrev bufTy : (tb : Table) → Fin (tcTables nBuf tb) → BufTy
  | .hbm, ⟨0, _⟩ => ⟨S64x8192, .f32⟩
  | .hbm, ⟨1, _⟩ => ⟨S1024x8192, .i32⟩
  | .hbm, ⟨2, _⟩ => ⟨S64x8192, .f32⟩
  | .hbm, ⟨3, _⟩ => ⟨S64x8192, .f32⟩
  | .local _ .vmem, ⟨0, _⟩ => ⟨S64x1024, .f32⟩
  | .local _ .vmem, ⟨1, _⟩ => ⟨S64x1024, .f32⟩
  | .local _ .vmem, ⟨2, _⟩ => ⟨S128x2048, .i32⟩
  | .local _ .vmem, ⟨3, _⟩ => ⟨S128x2048, .i32⟩
  | .local _ .vmem, ⟨4, _⟩ => ⟨S8x2048, .f32⟩
  | .local _ .vmem, ⟨5, _⟩ => ⟨S8x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v155 : BitVec 1 := Scalar.cmpi .eq arg1 c7_i32
  let v156 : BitVec 32 := Scalar.extui v155
  let c0_i32_26 : BitVec 32 := 0#32
  let v157 : BitVec 1 := Scalar.cmpi .ne v156 c0_i32_26
  v157

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S128x2048_S128x2048_0_0 : ∀ a, (![0, 0] : Fin 2 → Nat) a + S128x2048.size a ≤ S128x2048.size a
  h_S128x2048 : 0 < S128x2048.numel
  iota_S1x8_d1_w32 : S1x8.Iotas .tc 32 [1]
  shapeCasts_S1x8_S8 : S1x8.ShapeCasts S8
  shapeCasts_S8_S1x8x1 : S8.ShapeCasts S1x8x1
  shapeCasts_S128x2048_S128x1x2048 : S128x2048.ShapeCasts S128x1x2048
  broadcasts_S128x1x2048_S128x8x2048 : S128x1x2048.Broadcasts S128x8x2048
  broadcasts_S1x8x1_S128x8x2048 : S1x8x1.Broadcasts S128x8x2048
  bitsLt_bf16_f32 : FTy.bits .bf16 < FTy.bits .f32
  shapeCasts_S128x8x2048_S1024x2048 : S128x8x2048.ShapeCasts S1024x2048
  inb_S64x1024_S64x1024_0_0 : ∀ a, (![0, 0] : Fin 2 → Nat) a + S64x1024.size a ≤ S64x1024.size a
  h_S64x1024 : 0 < S64x1024.numel
  inb_S8x2048_S8x2048_0_0 : ∀ a, (![0, 0] : Fin 2 → Nat) a + S8x2048.size a ≤ S8x2048.size a
  h_S8x2048 : 0 < S8x2048.numel
  shapeCasts_S1024x2048_S8x128x2048 : S1024x2048.ShapeCasts S8x128x2048
  shapeCasts_S64x1024_S64x8x128 : S64x1024.ShapeCasts S64x8x128
  slices_S8x128x2048_o0_0_0_S1x128x2048 : S8x128x2048.Slices ![0, 0, 0] S1x128x2048
  shapeCasts_S1x128x2048_S128x2048 : S1x128x2048.ShapeCasts S128x2048
  slices_S64x8x128_o0_0_0_S64x1x128 : S64x8x128.Slices ![0, 0, 0] S64x1x128
  shapeCasts_S64x1x128_S64x128 : S64x1x128.ShapeCasts S64x128
  slices_S8x2048_o0_0_S1x2048 : S8x2048.Slices ![0, 0] S1x2048
  shapeCasts_S1x2048_S2048 : S1x2048.ShapeCasts S2048
  shapeCasts_S2048_S1x2048 : S2048.ShapeCasts S1x2048
  broadcasts_S1x2048_S64x2048 : S1x2048.Broadcasts S64x2048
  slices_S8x128x2048_o1_0_0_S1x128x2048 : S8x128x2048.Slices ![1, 0, 0] S1x128x2048
  slices_S64x8x128_o0_1_0_S64x1x128 : S64x8x128.Slices ![0, 1, 0] S64x1x128
  slices_S8x2048_o1_0_S1x2048 : S8x2048.Slices ![1, 0] S1x2048
  slices_S8x128x2048_o2_0_0_S1x128x2048 : S8x128x2048.Slices ![2, 0, 0] S1x128x2048
  slices_S64x8x128_o0_2_0_S64x1x128 : S64x8x128.Slices ![0, 2, 0] S64x1x128
  slices_S8x2048_o2_0_S1x2048 : S8x2048.Slices ![2, 0] S1x2048
  slices_S8x128x2048_o3_0_0_S1x128x2048 : S8x128x2048.Slices ![3, 0, 0] S1x128x2048
  slices_S64x8x128_o0_3_0_S64x1x128 : S64x8x128.Slices ![0, 3, 0] S64x1x128
  slices_S8x2048_o3_0_S1x2048 : S8x2048.Slices ![3, 0] S1x2048
  slices_S8x128x2048_o4_0_0_S1x128x2048 : S8x128x2048.Slices ![4, 0, 0] S1x128x2048
  slices_S64x8x128_o0_4_0_S64x1x128 : S64x8x128.Slices ![0, 4, 0] S64x1x128
  slices_S8x2048_o4_0_S1x2048 : S8x2048.Slices ![4, 0] S1x2048
  slices_S8x128x2048_o5_0_0_S1x128x2048 : S8x128x2048.Slices ![5, 0, 0] S1x128x2048
  slices_S64x8x128_o0_5_0_S64x1x128 : S64x8x128.Slices ![0, 5, 0] S64x1x128
  slices_S8x2048_o5_0_S1x2048 : S8x2048.Slices ![5, 0] S1x2048
  slices_S8x128x2048_o6_0_0_S1x128x2048 : S8x128x2048.Slices ![6, 0, 0] S1x128x2048
  slices_S64x8x128_o0_6_0_S64x1x128 : S64x8x128.Slices ![0, 6, 0] S64x1x128
  slices_S8x2048_o6_0_S1x2048 : S8x2048.Slices ![6, 0] S1x2048
  slices_S8x128x2048_o7_0_0_S1x128x2048 : S8x128x2048.Slices ![7, 0, 0] S1x128x2048
  slices_S64x8x128_o0_7_0_S64x1x128 : S64x8x128.Slices ![0, 7, 0] S64x1x128
  slices_S8x2048_o7_0_S1x2048 : S8x2048.Slices ![7, 0] S1x2048
  dot_S64x128_S128x2048_S64x2048_1_0_0_1_n_n_wf : DotDims.WF S64x128 S128x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x8192.size a
  hwx0_0 : ∀ i : grid0.Coords, EltTy.bits .f32 = 32 ∨ (Rect.block (s := S64x8192) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S1024x8192.size a
  hwx0_1 : ∀ i : grid0.Coords, EltTy.bits .i32 = 32 ∨ (Rect.block (s := S1024x8192) S128x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2048.size a ≤ S64x8192.size a
  hwx0_2 : ∀ i : grid0.Coords, EltTy.bits .f32 = 32 ∨ (Rect.block (s := S64x8192) S8x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x8192.size a
  hwx0_3 : ∀ i : grid0.Coords, EltTy.bits .f32 = 32 ∨ (Rect.block (s := S64x8192) S64x2048.size (cc0_transform_3 i) (hinb0_3 i)).WholeWords (EltTy.packing .f32)

variable [Facts₀]

def dot_S64x128_S128x2048_S64x2048_1_0_0_1_n_n : DotDims S64x128 S128x2048 S64x2048 where
  lhsContracting := [1]
  rhsContracting := [0]
  lhsNonContracting := [0]
  rhsNonContracting := [1]
  lhsBatch := []
  rhsBatch := []
  wf := dot_S64x128_S128x2048_S64x2048_1_0_0_1_n_n_wf

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x8192 : Shape := ⟨2, ![64, 8192]⟩
abbrev S1024x8192 : Shape := ⟨2, ![1024, 8192]⟩
abbrev S8 : Shape := ⟨1, ![8]⟩
abbrev S_ : Shape := ⟨0, ![]⟩
abbrev S1024x1x8192 : Shape := ⟨3, ![1024, 1, 8192]⟩
abbrev S1x8x1 : Shape := ⟨3, ![1, 8, 1]⟩
abbrev S1024x8x8192 : Shape := ⟨3, ![1024, 8, 8192]⟩
abbrev S8192x8192 : Shape := ⟨2, ![8192, 8192]⟩
abbrev S64x128x8192 : Shape := ⟨3, ![64, 128, 8192]⟩
abbrev S64x1x8192 : Shape := ⟨3, ![64, 1, 8192]⟩

abbrev nBuf : Space → Nat
  | .hbm => 26
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S1024x8192, .i32⟩
  | .hbm, ⟨2, _⟩ => ⟨S64x8192, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S1024x1x8192, .i32⟩
  | .hbm, ⟨8, _⟩ => ⟨S1x8x1, .i32⟩
  | .hbm, ⟨9, _⟩ => ⟨S1024x8x8192, .i32⟩
  | .hbm, ⟨10, _⟩ => ⟨S1024x8x8192, .i32⟩
  | .hbm, ⟨11, _⟩ => ⟨S1024x8x8192, .i32⟩
  | .hbm, ⟨12, _⟩ => ⟨S_, .i32⟩
  | .hbm, ⟨13, _⟩ => ⟨S1024x8x8192, .i32⟩
  | .hbm, ⟨14, _⟩ => ⟨S1024x8x8192, .i32⟩
  | .hbm, ⟨15, _⟩ => ⟨S8192x8192, .i32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S64x128x8192, .f32⟩
  | .hbm, ⟨21, _⟩ => ⟨S64x1x8192, .f32⟩
  | .hbm, ⟨22, _⟩ => ⟨S64x128x8192, .f32⟩
  | .hbm, ⟨23, _⟩ => ⟨S64x128x8192, .f32⟩
  | .hbm, ⟨24, _⟩ => ⟨S8192x8192, .f32⟩
  | .hbm, ⟨25, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S1024x8192_S1024x1x8192_0_2 : S1024x8192.BroadcastsInDim S1024x1x8192 (![0, 2] : Fin 2 → Fin S1024x1x8192.rank)
  bcast_S8_S1x8x1_1 : S8.BroadcastsInDim S1x8x1 (![1] : Fin 1 → Fin S1x8x1.rank)
  bcast_S1024x1x8192_S1024x8x8192_0_1_2 : S1024x1x8192.BroadcastsInDim S1024x8x8192 (![0, 1, 2] : Fin 3 → Fin S1024x8x8192.rank)
  bcast_S1x8x1_S1024x8x8192_0_1_2 : S1x8x1.BroadcastsInDim S1024x8x8192 (![0, 1, 2] : Fin 3 → Fin S1024x8x8192.rank)
  bcast_S_S1024x8x8192 : S_.BroadcastsInDim S1024x8x8192 (![] : Fin 0 → Fin S1024x8x8192.rank)
  shapeCasts_S1024x8x8192_S8192x8192 : S1024x8x8192.ShapeCasts S8192x8192
  bcast_S_S8192x8192 : S_.BroadcastsInDim S8192x8192 (![] : Fin 0 → Fin S8192x8192.rank)
  shapeCasts_S8192x8192_S64x128x8192 : S8192x8192.ShapeCasts S64x128x8192
  bcast_S64x8192_S64x1x8192_0_2 : S64x8192.BroadcastsInDim S64x1x8192 (![0, 2] : Fin 2 → Fin S64x1x8192.rank)
  bcast_S64x1x8192_S64x128x8192_0_1_2 : S64x1x8192.BroadcastsInDim S64x128x8192 (![0, 1, 2] : Fin 3 → Fin S64x128x8192.rank)
  shapeCasts_S64x128x8192_S8192x8192 : S64x128x8192.ShapeCasts S8192x8192
  dot_S64x8192_S8192x8192_S64x8192_1_0_0_1_n_n_wf : DotDims.WF S64x8192 S8192x8192 S64x8192 [1] [0] [0] [1] [] []

variable [Facts₀]

def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf

class Facts : Prop extends Facts₀ where

variable [Facts]
-- ==== Proof.Nibble.lean ====
/-
  One packed nibble of a 32-bit word, and its two float readings.

  A word packs eight 4-bit fields; field j is (w >>ₛ 4j) & 15, a value 0..15. The weight it encodes is that value
  minus 8. Two ways of turning the field into a float meet here and agree on the extended reals:
  · convert the integer to a float and subtract 8;
  · OR the field into the low mantissa bits of the pattern of 2^23 — the pattern then denotes 2^23 + field exactly —
    and subtract the float 2^23 + 8.
-/
import Idealize.ShloMosaic.PureOps.Ideal
import Idealize.ShloMosaic.PureOps.Ideal.Laws
import Idealize.ShloMosaic.Lib.ValueIdx

noncomputable section

namespace Cert.Nibble

open Idealize.ShloMosaic

/-- The shift amount of field j: 4·j as a word. -/
def shAmt (j : ℕ) : BitVec 32 := IntOp.muli (BitVec.ofNat 32 j) 4#32

/-- Field j of the word w: (w >>ₛ 4j) & 15. -/
def nibw (w : BitVec 32) (j : ℕ) : BitVec 32 := IntOp.andi (w.sshiftRight' (shAmt j)) 15#32

/-- The weight field j of w encodes: its value minus 8, a real. -/
def nibr (w : BitVec 32) (j : ℕ) : ℝ := ((nibw w j).toInt : ℝ) - 8

/-- For j < 8 the shift amount is below the width, so the arithmetic shift of any unit is the plain one. -/
theorem andi_shrsi_eq (u : ArithUnit) (w : BitVec 32) (j : ℕ) (hj : j < 8) :
    IntOp.andi (IntOp.shrsi u w (IntOp.muli (BitVec.ofNat 32 j) 4#32)) 15#32 = nibw w j := by
  unfold nibw shAmt IntOp.shrsi
  rw [if_pos (by interval_cases j <;> decide)]

/-- A field is below 16. -/
theorem nibw_lt (w : BitVec 32) (j : ℕ) : (nibw w j).toNat < 16 := by
  unfold nibw IntOp.andi
  rw [BitVec.toNat_and]
  exact lt_of_le_of_lt Nat.and_le_right (by decide)

/-- The float 8.0 is the real 8. -/
theorem ofBits_eight : Ideal.ofBits .f32 0x41000000#32 = ((8 : ℝ) : EReal) := by
  simp [Ideal.ofBits, Ideal.ieee, -EReal.coe_mul]; norm_num

/-- The integer conversion of a field minus the float 8 is the weight. -/
theorem convert_sub (w : BitVec 32) (j : ℕ) :
    FloatOps.subf (F := Ideal) (FloatOps.sitofp (F := Ideal) .f32 (nibw w j)) (FloatOps.ofBits (F := Ideal) .f32 0x41000000#32)
      = ((nibr w j : ℝ) : EReal) := by
  show (((nibw w j).toInt : ℝ) : EReal) - Ideal.ofBits .f32 0x41000000#32 = _
  rw [ofBits_eight, ← EReal.coe_sub]; rfl

/-- A value v below 16 ORed into the pattern of 2^23 denotes 2^23 + v; minus the float 2^23 + 8 it is v - 8. -/
theorem biased_sub_of_lt (v : BitVec 32) (hv : v.toNat < 16) :
    FloatOps.subf (F := Ideal) (FloatOps.ofBits (F := Ideal) .f32 (IntOp.ori 1258291200#32 v)) (FloatOps.ofBits (F := Ideal) .f32 0x4B000008#32)
      = (((v.toInt : ℝ) - 8 : ℝ) : EReal) := by
  obtain ⟨n, hn, rfl⟩ : ∃ n, n < 16 ∧ v = BitVec.ofNat 32 n := ⟨v.toNat, hv, by simp⟩
  have hb : Ideal.ofBits .f32 0x4B000008#32 = ((8388616 : ℝ) : EReal) := by
    simp [Ideal.ofBits, Ideal.ieee, -EReal.coe_mul]
  have ho : Ideal.ofBits .f32 (IntOp.ori 1258291200#32 (BitVec.ofNat 32 n)) = (((8388608 : ℝ) + (n : ℝ) : ℝ) : EReal) := by
    interval_cases n <;> simp [Ideal.ofBits, Ideal.ieee, IntOp.ori, -EReal.coe_mul, -EReal.coe_add] <;> (try norm_num)
  have hi : ((BitVec.ofNat 32 n).toInt : ℝ) = (n : ℝ) := by
    interval_cases n <;> simp
  show Ideal.ofBits .f32 (IntOp.ori 1258291200#32 (BitVec.ofNat 32 n)) - Ideal.ofBits .f32 0x4B000008#32 = _
  rw [ho, hb, hi, ← EReal.coe_sub]
  congr 1; ring

/-- The bit-level reading of a field is the weight. -/
theorem biased_sub (w : BitVec 32) (j : ℕ) :
    FloatOps.subf (F := Ideal) (FloatOps.ofBits (F := Ideal) .f32 (IntOp.ori 1258291200#32 (nibw w j))) (FloatOps.ofBits (F := Ideal) .f32 0x4B000008#32)
      = ((nibr w j : ℝ) : EReal) :=
  biased_sub_of_lt _ (nibw_lt w j)

end Cert.Nibble

end
-- ==== Proof.LibConv.lean ====
import Idealize.ShloMosaic.Lib.ValueLayout
import Idealize.ShloMosaic.Lib.StackMember
import Mathlib.Algebra.BigOperators.Fin

/-!
# Layout operations of a block-window convolution body, read at coordinates

What every convolution body of the two programs does around its matrix products, for arrays of any extents: a
three-axis array flattened to a matrix and back (row `y · B + x`), a weight piece `[1, 1, a, b]` read as the matrix
`[a, b]`, the bias row laid along every row, the matrix product with the plain dimension numbers into the zero matrix
as a sum over the contracted coordinate, and a sum over `Fin K` as a sum over `range K`.
-/

namespace Cert.LibConv

open Idealize.ShloMosaic Idealize.ShloMosaic.ValueIdx
open Finset

section Layout
variable {α : Type}

/-- An A × B × C array flattened to M × C (M = A · B) reads, at row `m = y · B + x` and column `k`, the array at
    `(y, x, k)`: both have the same place in row-major order. -/
theorem flatten3_apply {A B C M : ℕ} (v : (⟨3, ![A, B, C]⟩ : Shape).Idx → α)
    (h : (⟨3, ![A, B, C]⟩ : Shape).ShapeCasts ⟨2, ![M, C]⟩) (y : Fin A) (x : Fin B) (k : Fin C) (m : Fin M)
    (hm : m.val = y.val * B + x.val) :
    shapeCast ⟨2, ![M, C]⟩ v h (ix2 m k) = v (ix3 y x k) :=
  shapeCast_apply v h _ _ (by
    rw [Shape.rowMajor_val_three, Shape.rowMajor_val_two]
    show (y.val * B + x.val) * C + k.val = m.val * C + k.val
    rw [hm])

/-- An M × C matrix (M = A · B) read as an A × B × C array: at `(y, x, k)` it is the matrix at row
    `m = y · B + x`, column `k`. -/
theorem unflatten3_apply {A B C M : ℕ} (v : (⟨2, ![M, C]⟩ : Shape).Idx → α)
    (h : (⟨2, ![M, C]⟩ : Shape).ShapeCasts ⟨3, ![A, B, C]⟩) (y : Fin A) (x : Fin B) (k : Fin C) (m : Fin M)
    (hm : m.val = y.val * B + x.val) :
    shapeCast ⟨3, ![A, B, C]⟩ v h (ix3 y x k) = v (ix2 m k) :=
  shapeCast_apply v h _ _ (by
    rw [Shape.rowMajor_val_three, Shape.rowMajor_val_two]
    show m.val * C + k.val = (y.val * B + x.val) * C + k.val
    rw [hm])

/-- A `[1, 1, a, b]` array read as the matrix `[a, b]`: at `(i, j)` it is the array at `(0, 0, i, j)`. -/
theorem shapeCast_11ab_ab_apply {a b : ℕ} (v : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ v h (ix2 i j) = v (ix4 (0 : Fin 1) (0 : Fin 1) i j) :=
  shapeCast_apply v h _ _ (by
    rw [Shape.rowMajor_val_four, Shape.rowMajor_val_two]
    show ((0 * 1 + 0) * a + i.val) * b + j.val = i.val * b + j.val
    simp only [Nat.zero_mul, Nat.zero_add])

/-- The bias row `[1, 1, b]`, read as `[1, b]` and laid along each of `a` rows: at `(p, n)` it is the row's
    entry `n`. -/
theorem biasRows_apply {a b : ℕ} (v : (⟨3, ![1, 1, b]⟩ : Shape).Idx → α)
    (h1 : (⟨3, ![1, 1, b]⟩ : Shape).ShapeCasts ⟨2, ![1, b]⟩) (h2 : (⟨2, ![1, b]⟩ : Shape).ShapeCasts ⟨2, ![1, b]⟩)
    (hb : (⟨2, ![1, b]⟩ : Shape).Broadcasts ⟨2, ![a, b]⟩) (p : Fin a) (n : Fin b) :
    broadcastTo ⟨2, ![a, b]⟩ (shapeCast ⟨2, ![1, b]⟩ (shapeCast ⟨2, ![1, b]⟩ v h1) h2) hb (ix2 p n)
      = v (ix3 (0 : Fin 1) (0 : Fin 1) n) := by
  rw [broadcastTo_1b_ab_apply, shapeCast_self, shapeCast_1ab_ab_apply]

end Layout

/-- A product with the plain dimension numbers of an M × K by K × N product, accumulated into the zero matrix, read at
    `(m, n)`: the sum over the contracted coordinate. -/
theorem matmul_plain_zero_apply {M K N : ℕ} {φ₁ φ₂ : FTy} (D : DotDims ⟨2, ![M, K]⟩ ⟨2, ![K, N]⟩ ⟨2, ![M, N]⟩)
    (hD : D = DotDims.plain M K N) (A : FVec Ideal ⟨2, ![M, K]⟩ φ₁) (B : FVec Ideal ⟨2, ![K, N]⟩ φ₂) (m : Fin M)
    (n : Fin N) :
    matmul D none A B (constant (F := Ideal) ⟨2, ![M, N]⟩ .f32 0x00000000#32) (ix2 m n)
      = ∑ k : Fin K, A (ix2 m k) * B (ix2 k n) := by
  subst hD
  rw [matmul_zero_eq_dotGeneral]
  exact StackMember.dotGeneral_plain_apply none A B m n

/-- A sum over `Fin K` whose terms are a function of the coordinate's value is the sum over `range K`. -/
theorem sum_fin {K : ℕ} (f : Fin K → EReal) (g : ℕ → EReal) (h : ∀ k : Fin K, f k = g k.val) :
    ∑ k : Fin K, f k = ∑ k ∈ range K, g k :=
  (Finset.sum_congr rfl fun k _ => h k).trans (Fin.sum_univ_eq_sum_range g K)

end Cert.LibConv
-- ==== Proof.LibReal.lean ====
/-
  Reals inside the extended reals, and the finiteness precondition read back.

  General facts, independent of any program: the cast of a finite sum of reals; the f32 pattern of -∞; an extended
  real whose absolute value is below +∞ is a real; and one conjunct of a printed "all inputs finite" precondition —
  an and-reduce to a scalar of the elementwise test |x| < +∞ that came out 1 — makes every entry of the array a real.
-/
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

open scoped BigOperators

namespace Cert.LibReal

open Idealize.ShloMosaic Idealize.ShloMosaic.ValueIdx

/-- An extended real that is a real. -/
def IsReal (x : EReal) : Prop := ∃ r : ℝ, x = (r : EReal)

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The f32 pattern of -∞ is the bottom of the extended reals. -/
theorem ofBits_negInf_f32 : Ideal.ofBits .f32 0xFF800000#32 = ⊥ := by simp [Ideal.ofBits, Ideal.ieee]

/-- The f32 pattern of +∞ is the top of the extended reals. -/
theorem ofBits_posInf_f32 : Ideal.ofBits .f32 0x7F800000#32 = ⊤ := by simp [Ideal.ofBits, Ideal.ieee]

/-- The scalar shape has one index. -/
instance : Subsingleton (⟨0, ![]⟩ : Shape).Idx := ⟨fun a b => funext fun d => d.elim0⟩

/-- An extended real whose absolute value is below +∞ is a real. -/
theorem isReal_of_abs_lt_top (x : EReal) (h : max x (-x) < ⊤) : IsReal x := by
  induction x using EReal.rec with
  | bot => simp at h
  | top => simp at h
  | coe r => exact ⟨r, rfl⟩

/-- One conjunct of a finiteness precondition: an and-reduce to a scalar of "|x| < +∞" that is 1 makes every entry of
    x a real, at any shape and whichever axes the reduce names. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h1 := Host.reduce_andi_all _ _ hr hu ix0 e i
  rw [cmpf_apply, broadcastInDim_apply ![] hb _ i ix0 (fun a => a.elim0)] at h1
  have h3 : Ideal.cmp .olt (max (x i) (-(x i))) (Ideal.ofBits .f32 0x7F800000#32) = 1#1 := h1
  rw [ofBits_posInf_f32] at h3
  refine isReal_of_abs_lt_top _ ?_
  by_contra hn
  unfold Ideal.cmp at h3
  simp [hn] at h3

end Cert.LibReal

end
-- ==== Proof.Body.lean ====
/-
  The kernel body's arithmetic at one output entry.

  At a grid point the body holds an x block [64, 1024], a block of packed words [128, 2048] (eight 4-bit fields a
  word, field q of word row p being weight row 8p + q) and a block of group scales [8, 2048]. For each of the 8 groups
  g of 128 consecutive weight rows it forms (x_g · w_g + (x_g - x_g) · w_g) * s_g and adds the eight results onto the
  accumulator. With real entries in x and s the second product vanishes and the scale moves inside the sum, so entry
  (r, n) of the result is the accumulator's entry plus the sum over the 1024 rows k of x(r, k) · (w(k, n) · s(k / 128, n)).
-/
import proofs.«402976_j86766929313858_3_alg».proof.Proof.Gen.KernelIdeal.Skeleton
import proofs.«402976_j86766929313858_3_alg».proof.Proof.Nibble
import proofs.«402976_j86766929313858_3_alg».proof.Proof.LibConv
import proofs.«402976_j86766929313858_3_alg».proof.Proof.LibReal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open Cert.Nibble Cert.LibConv Cert.LibReal
open Finset

/-! ## Layout reads -/

section Layout
variable {α : Type}

/-- Group g of the x rows, as a [64, 128] matrix: entry (r, j) is the [64, 8, 128] array at (r, g, j). -/
theorem xGroup_apply (g : ℕ) (hg : g < 8) (X : S64x8x128.Idx → α) (hX : S64x8x128.Slices ![0, g, 0] S64x1x128)
    (hc : S64x1x128.ShapeCasts S64x128) (r : Fin 64) (j : Fin 128) :
    shapeCast S64x128 (extractStridedSlice S64x1x128 ![0, g, 0] X hX) hc (ix2 r j) = X (ix3 r ⟨g, hg⟩ j) := by
  rw [shapeCast_apply _ hc (ix2 r j) (ix3 r (0 : Fin 1) j) (by
    rw [Shape.rowMajor_val_three, Shape.rowMajor_val_two]
    show (r.val * 1 + 0) * 128 + j.val = r.val * 128 + j.val
    omega)]
  exact extractStridedSlice_apply _ X hX _ _ fun a => match a with
    | ⟨0, _⟩ => by show r.val = 0 + r.val; omega
    | ⟨1, _⟩ => by show g = g + 0; omega
    | ⟨2, _⟩ => by show j.val = 0 + j.val; omega

/-- Group g of the weight rows, as a [128, 2048] matrix: entry (j, n) is the [8, 128, 2048] array at (g, j, n). -/
theorem wGroup_apply (g : ℕ) (hg : g < 8) (W : S8x128x2048.Idx → α) (hW : S8x128x2048.Slices ![g, 0, 0] S1x128x2048)
    (hc : S1x128x2048.ShapeCasts S128x2048) (j : Fin 128) (n : Fin 2048) :
    shapeCast S128x2048 (extractStridedSlice S1x128x2048 ![g, 0, 0] W hW) hc (ix2 j n) = W (ix3 ⟨g, hg⟩ j n) := by
  rw [shapeCast_1ab_ab_apply]
  exact extractStridedSlice_apply _ W hW _ _ fun a => match a with
    | ⟨0, _⟩ => by show g = g + 0; omega
    | ⟨1, _⟩ => by show j.val = 0 + j.val; omega
    | ⟨2, _⟩ => by show n.val = 0 + n.val; omega

/-- Scale row g laid along the 64 rows: entry (r, n) is the [8, 2048] block at (g, n). -/
theorem sGroup_apply (g : ℕ) (hg : g < 8) (S : S8x2048.Idx → α) (hS : S8x2048.Slices ![g, 0] S1x2048)
    (h1 : S1x2048.ShapeCasts S2048) (h2 : S2048.ShapeCasts S1x2048) (h3 : S1x2048.Broadcasts S64x2048) (r : Fin 64) (n : Fin 2048) :
    broadcastTo S64x2048 (shapeCast S1x2048 (shapeCast S2048 (extractStridedSlice S1x2048 ![g, 0] S hS) h1) h2) h3 (ix2 r n)
      = S (ix2 ⟨g, hg⟩ n) := by
  rw [broadcastTo_1b_ab_apply, shapeCast_a_1a_apply, shapeCast_1a_a_apply]
  exact extractStridedSlice_apply _ S hS _ _ fun a => match a with
    | ⟨0, _⟩ => by show g = g + 0; omega
    | ⟨1, _⟩ => by show n.val = 0 + n.val; omega

/-- The x block [64, 1024] viewed [64, 8, 128]: entry (r, g, j) is column 128g + j of row r. -/
theorem xSplit_apply (x : S64x1024.Idx → α) (h : S64x1024.ShapeCasts S64x8x128) (r : Fin 64) (g : Fin 8) (j : Fin 128) :
    shapeCast S64x8x128 x h (ix3 r g j) = x (ix2 r ⟨g.val * 128 + j.val, by omega⟩) :=
  shapeCast_apply x h _ _ (by
    rw [Shape.rowMajor_val_two, Shape.rowMajor_val_three]
    show r.val * 1024 + (g.val * 128 + j.val) = (r.val * 8 + g.val) * 128 + j.val
    omega)

/-- Each word row p of the packed block repeated for its eight fields: entry (p, q, n) is the word at (p, n). -/
theorem wordRep_apply (b : S128x2048.Idx → α) (h1 : S128x2048.ShapeCasts S128x1x2048) (h2 : S128x1x2048.Broadcasts S128x8x2048)
    (p : Fin 128) (q : Fin 8) (n : Fin 2048) :
    broadcastTo S128x8x2048 (shapeCast S128x1x2048 b h1) h2 (ix3 p q n) = b (ix2 p n) := by
  rw [broadcastTo_apply _ h2 (ix3 p q n) (ix3 p (0 : Fin 1) n) (fun a => match a with
    | ⟨0, _⟩ => by show p.val = if (128 : ℕ) = 1 then 0 else p.val; rw [if_neg (by decide)]
    | ⟨1, _⟩ => by show 0 = if (1 : ℕ) = 1 then 0 else q.val; rw [if_pos rfl]
    | ⟨2, _⟩ => by show n.val = if (2048 : ℕ) = 1 then 0 else n.val; rw [if_neg (by decide)])]
  exact shapeCast_apply b h1 _ _ (by
    rw [Shape.rowMajor_val_two, Shape.rowMajor_val_three]
    show p.val * 2048 + n.val = (p.val * 1 + 0) * 2048 + n.val
    omega)

end Layout

/-- The shift amounts 0, 4, …, 28 laid over the [128, 8, 2048] fields: entry (p, q, n) is 4q. -/
theorem shiftRep_apply (hi : S1x8.Iotas .tc 32 [1]) (h1 : S1x8.ShapeCasts S8) (h2 : S8.ShapeCasts S1x8x1)
    (h3 : S1x8x1.Broadcasts S128x8x2048) (p : Fin 128) (q : Fin 8) (n : Fin 2048) :
    broadcastTo S128x8x2048 (shapeCast S1x8x1 (muli (shapeCast S8 (iota .tc S1x8 32 [1] hi) h1) (broadcast S8 4#32)) h2) h3 (ix3 p q n)
      = IntOp.muli (BitVec.ofNat 32 q.val) 4#32 := by
  rw [broadcastTo_apply _ h3 (ix3 p q n) (ix3 (0 : Fin 1) q (0 : Fin 1)) (fun a => match a with
    | ⟨0, _⟩ => by show 0 = if (1 : ℕ) = 1 then 0 else p.val; rw [if_pos rfl]
    | ⟨1, _⟩ => by show q.val = if (8 : ℕ) = 1 then 0 else q.val; rw [if_neg (by decide)]
    | ⟨2, _⟩ => by show 0 = if (1 : ℕ) = 1 then 0 else n.val; rw [if_pos rfl])]
  rw [shapeCast_apply _ h2 (ix3 (0 : Fin 1) q (0 : Fin 1)) (ix1 q) (by
    rw [Shape.rowMajor_val_one, Shape.rowMajor_val_three]
    show q.val = (0 * 8 + q.val) * 1 + 0
    omega)]
  show IntOp.muli (shapeCast S8 (iota .tc S1x8 32 [1] hi) h1 (ix1 q)) 4#32 = _
  rw [shapeCast_1a_a_apply, iota_single_apply]

/-! ## The payloads at an index, at the ideal instance -/

/-- The weights: entry (g, j, n) of the [8, 128, 2048] array is the weight that field (128g + j) % 8 of word row
    (128g + j) / 8 encodes — the flatten [128, 8, 2048] → [1024, 2048] puts field q of word row p at weight row 8p + q. -/
theorem weight_apply (b1 : Vec Ideal S128x2048 .i32) (g : ℕ) (hg : g < 8) (j : Fin 128) (n : Fin 2048) :
    k0_pay3 (F := Ideal) b1 (ix3 (⟨g, hg⟩ : Fin 8) j n)
      = ((nibr (b1 (ix2 ⟨(g * 128 + j.val) / 8, by omega⟩ n)) ((g * 128 + j.val) % 8) : ℝ) : EReal) := by
  unfold k0_pay3
  rw [unflatten3_apply _ _ (⟨g, hg⟩ : Fin 8) j n ⟨g * 128 + j.val, by omega⟩ rfl]
  rw [flatten3_apply _ _ ⟨(g * 128 + j.val) / 8, by omega⟩ ⟨(g * 128 + j.val) % 8, Nat.mod_lt _ (by norm_num)⟩ n
    ⟨g * 128 + j.val, by omega⟩ (by show g * 128 + j.val = (g * 128 + j.val) / 8 * 8 + (g * 128 + j.val) % 8; omega)]
  show FloatOps.subf (F := Ideal) (FloatOps.ofBits (F := Ideal) .f32 (IntOp.ori 1258291200#32 (IntOp.andi (IntOp.shrsi .vector
      (broadcastTo S128x8x2048 (shapeCast S128x1x2048 b1 _) _ _) (broadcastTo S128x8x2048 _ _ _)) 15#32)))
    (FloatOps.ofBits (F := Ideal) .f32 0x4B000008#32) = _
  rw [wordRep_apply, shiftRep_apply, andi_shrsi_eq _ _ _ (Nat.mod_lt _ (by norm_num)), biased_sub]

/-- The x block as [64, 8, 128] (the change of float format is the identity): entry (r, g, j) is x(r, 128g + j). -/
theorem xhi_apply (b0 : Vec Ideal S64x1024 .f32) (r : Fin 64) (g : ℕ) (hg : g < 8) (j : Fin 128) :
    k0_pay4 (F := Ideal) b0 (ix3 r (⟨g, hg⟩ : Fin 8) j) = b0 (ix2 r ⟨g * 128 + j.val, by omega⟩) := by
  unfold k0_pay4
  rw [xSplit_apply]
  rfl

/-- The low part of the split of x: x minus itself. -/
theorem xlo_apply (b0 : Vec Ideal S64x1024 .f32) (r : Fin 64) (g : ℕ) (hg : g < 8) (j : Fin 128) :
    k0_pay5 (F := Ideal) b0 (ix3 r (⟨g, hg⟩ : Fin 8) j)
      = b0 (ix2 r ⟨g * 128 + j.val, by omega⟩) - b0 (ix2 r ⟨g * 128 + j.val, by omega⟩) := by
  unfold k0_pay5
  rw [xSplit_apply]
  rfl

/-! ## One group, and the whole body -/

section Generic
variable {F : FTy → Type} [FloatOps F]

/-- Group g's contribution as the body writes it: (x_g · w_g + xlo_g · w_g) * s_g, each product into a zero accumulator. -/
def grp (g : ℕ) (b2 : Vec F S8x2048 .f32) (W : FVec F S8x128x2048 .bf16) (X Xl : FVec F S64x8x128 .bf16)
    (hX : S64x8x128.Slices ![0, g, 0] S64x1x128) (hW : S8x128x2048.Slices ![g, 0, 0] S1x128x2048)
    (hS : S8x2048.Slices ![g, 0] S1x2048) : FVec F S64x2048 .f32 :=
  mulf (addf
      (matmul dot_S64x128_S128x2048_S64x2048_1_0_0_1_n_n none
        (shapeCast S64x128 (extractStridedSlice S64x1x128 ![0, g, 0] X hX) shapeCasts_S64x1x128_S64x128)
        (shapeCast S128x2048 (extractStridedSlice S1x128x2048 ![g, 0, 0] W hW) shapeCasts_S1x128x2048_S128x2048)
        (constant S64x2048 .f32 0x00000000#32))
      (matmul dot_S64x128_S128x2048_S64x2048_1_0_0_1_n_n none
        (shapeCast S64x128 (extractStridedSlice S64x1x128 ![0, g, 0] Xl hX) shapeCasts_S64x1x128_S64x128)
        (shapeCast S128x2048 (extractStridedSlice S1x128x2048 ![g, 0, 0] W hW) shapeCasts_S1x128x2048_S128x2048)
        (constant S64x2048 .f32 0x00000000#32)))
    (broadcastTo S64x2048 (shapeCast S1x2048 (shapeCast S2048 (extractStridedSlice S1x2048 ![g, 0] b2 hS)
      shapeCasts_S1x2048_S2048) shapeCasts_S2048_S1x2048) broadcasts_S1x2048_S64x2048)

/-- What the body stores into the accumulator, as a function of the three input blocks and the accumulator it loaded:
    the composition of the body's pure steps. -/
def body (b0 : Vec F S64x1024 .f32) (b1 : Vec F S128x2048 .i32) (b2 : Vec F S8x2048 .f32) (acc : Vec F S64x2048 .f32) :
    FVec F S64x2048 .f32 :=
  k0_pay1
    (k0_pay10 b2 (k0_pay3 b1) (k0_pay4 b0) (k0_pay5 b0)
      (k0_pay7 b2 (k0_pay3 b1) (k0_pay4 b0) (k0_pay5 b0) acc (k0_pay6 b1 b0))
      (k0_pay8 (k0_pay3 b1)) (k0_pay9 (k0_pay4 b0)))
    (k0_pay11 (k0_pay3 b1) (k0_pay4 b0) (k0_pay5 b0)) (k0_pay12 b2)

/-- The body is the accumulator plus the eight groups, added in order. -/
theorem body_eq (b0 : Vec F S64x1024 .f32) (b1 : Vec F S128x2048 .i32) (b2 : Vec F S8x2048 .f32) (acc : Vec F S64x2048 .f32) :
    body b0 b1 b2 acc = shapeCast S64x2048
      (addf (addf (addf (addf (addf (addf (addf (addf acc
        (grp 0 b2 (k0_pay3 b1) (k0_pay4 b0) (k0_pay5 b0) slices_S64x8x128_o0_0_0_S64x1x128 slices_S8x128x2048_o0_0_0_S1x128x2048 slices_S8x2048_o0_0_S1x2048))
        (grp 1 b2 (k0_pay3 b1) (k0_pay4 b0) (k0_pay5 b0) slices_S64x8x128_o0_1_0_S64x1x128 slices_S8x128x2048_o1_0_0_S1x128x2048 slices_S8x2048_o1_0_S1x2048))
        (grp 2 b2 (k0_pay3 b1) (k0_pay4 b0) (k0_pay5 b0) slices_S64x8x128_o0_2_0_S64x1x128 slices_S8x128x2048_o2_0_0_S1x128x2048 slices_S8x2048_o2_0_S1x2048))
        (grp 3 b2 (k0_pay3 b1) (k0_pay4 b0) (k0_pay5 b0) slices_S64x8x128_o0_3_0_S64x1x128 slices_S8x128x2048_o3_0_0_S1x128x2048 slices_S8x2048_o3_0_S1x2048))
        (grp 4 b2 (k0_pay3 b1) (k0_pay4 b0) (k0_pay5 b0) slices_S64x8x128_o0_4_0_S64x1x128 slices_S8x128x2048_o4_0_0_S1x128x2048 slices_S8x2048_o4_0_S1x2048))
        (grp 5 b2 (k0_pay3 b1) (k0_pay4 b0) (k0_pay5 b0) slices_S64x8x128_o0_5_0_S64x1x128 slices_S8x128x2048_o5_0_0_S1x128x2048 slices_S8x2048_o5_0_S1x2048))
        (grp 6 b2 (k0_pay3 b1) (k0_pay4 b0) (k0_pay5 b0) slices_S64x8x128_o0_6_0_S64x1x128 slices_S8x128x2048_o6_0_0_S1x128x2048 slices_S8x2048_o6_0_S1x2048))
        (grp 7 b2 (k0_pay3 b1) (k0_pay4 b0) (k0_pay5 b0) slices_S64x8x128_o0_7_0_S64x1x128 slices_S8x128x2048_o7_0_0_S1x128x2048 slices_S8x2048_o7_0_S1x2048))
      shapeCasts_S64x2048_S64x2048 := rfl

end Generic

/-! ## At an entry, over real x and s -/

/-- A sum over G·m consecutive naturals, block by block. -/
theorem sum_range_blocks {M : Type*} [AddCommMonoid M] (T : ℕ → M) (m G : ℕ) :
    ∑ k ∈ range (G * m), T k = ∑ g ∈ range G, ∑ j ∈ range m, T (g * m + j) := by
  induction G with
  | zero => simp
  | succ G ih => rw [Nat.succ_mul, Finset.sum_range_add, ih, Finset.sum_range_succ]

/-- Eight terms. -/
theorem sum_range_eight {M : Type*} [AddCommMonoid M] (T : ℕ → M) :
    ∑ g ∈ range 8, T g = T 0 + T 1 + T 2 + T 3 + T 4 + T 5 + T 6 + T 7 := by
  simp only [Finset.sum_range_succ, Finset.sum_range_zero, zero_add]

/-- Row k of the block's contribution to entry (r, n): x(r, k) · (w(k, n) · s(k / 128, n)), the coordinates reduced into
    the blocks' extents so that the term is defined at every natural k. -/
def blockTerm (b0 : Vec Ideal S64x1024 .f32) (b1 : Vec Ideal S128x2048 .i32) (b2 : Vec Ideal S8x2048 .f32)
    (r : Fin 64) (n : Fin 2048) (k : ℕ) : EReal :=
  b0 (ix2 r ⟨k % 1024, Nat.mod_lt _ (by norm_num)⟩)
    * (((nibr (b1 (ix2 ⟨k / 8 % 128, Nat.mod_lt _ (by norm_num)⟩ n)) (k % 8) : ℝ) : EReal)
      * b2 (ix2 ⟨k / 128 % 8, Nat.mod_lt _ (by norm_num)⟩ n))

/-- One group at an entry: with real x and s the product of x - x vanishes and the scale distributes over the 128 rows. -/
theorem grp_apply (g : ℕ) (hg : g < 8) (b0 : Vec Ideal S64x1024 .f32) (b1 : Vec Ideal S128x2048 .i32) (b2 : Vec Ideal S8x2048 .f32)
    (h0 : ∀ y, IsReal (b0 y)) (h2 : ∀ y, IsReal (b2 y))
    (hX : S64x8x128.Slices ![0, g, 0] S64x1x128) (hW : S8x128x2048.Slices ![g, 0, 0] S1x128x2048)
    (hS : S8x2048.Slices ![g, 0] S1x2048) (r : Fin 64) (n : Fin 2048) :
    grp (F := Ideal) g b2 (k0_pay3 b1) (k0_pay4 b0) (k0_pay5 b0) hX hW hS (ix2 r n)
      = ∑ j ∈ range 128, blockTerm b0 b1 b2 r n (g * 128 + j) := by
  obtain ⟨s, hs⟩ := h2 (ix2 ⟨g, hg⟩ n)
  choose x hx using fun j : Fin 128 => h0 (ix2 r ⟨g * 128 + j.val, by omega⟩)
  have key : ∀ j : Fin 128, blockTerm b0 b1 b2 r n (g * 128 + j.val)
      = ((x j * (nibr (b1 (ix2 ⟨(g * 128 + j.val) / 8, by omega⟩ n)) ((g * 128 + j.val) % 8) * s) : ℝ) : EReal) := by
    intro j
    have a1 : (g * 128 + j.val) % 1024 = g * 128 + j.val := Nat.mod_eq_of_lt (by omega)
    have a2 : (g * 128 + j.val) / 8 % 128 = (g * 128 + j.val) / 8 := Nat.mod_eq_of_lt (by omega)
    have a3 : (g * 128 + j.val) / 128 % 8 = g := by omega
    unfold blockTerm
    simp only [a1, a2, a3]
    rw [hx j, hs, ← EReal.coe_mul, ← EReal.coe_mul]
  rw [← Fin.sum_univ_eq_sum_range (fun k => blockTerm b0 b1 b2 r n (g * 128 + k)) 128]
  simp only [key]
  rw [← coe_sum]
  unfold grp
  rw [mulf_apply, addf_apply, matmul_plain_zero_apply dot_S64x128_S128x2048_S64x2048_1_0_0_1_n_n rfl,
    matmul_plain_zero_apply dot_S64x128_S128x2048_S64x2048_1_0_0_1_n_n rfl, sGroup_apply g hg, hs]
  simp only [xGroup_apply g hg, wGroup_apply g hg, weight_apply _ g hg, xhi_apply _ _ g hg, xlo_apply _ _ g hg, hx]
  simp only [← EReal.coe_sub, ← EReal.coe_mul, ← coe_sum, ← EReal.coe_add]
  congr 1
  simp only [sub_self, zero_mul, Finset.sum_const_zero, add_zero, Finset.sum_mul]
  exact Finset.sum_congr rfl fun j _ => by ring

/-- THE BODY AT AN ENTRY: over real x and s, entry (r, n) of what the body stores is the loaded accumulator's entry plus
    the sum over the block's 1024 rows. -/
theorem body_apply (b0 : Vec Ideal S64x1024 .f32) (b1 : Vec Ideal S128x2048 .i32) (b2 : Vec Ideal S8x2048 .f32)
    (acc : Vec Ideal S64x2048 .f32) (h0 : ∀ y, IsReal (b0 y)) (h2 : ∀ y, IsReal (b2 y)) (r : Fin 64) (n : Fin 2048) :
    body (F := Ideal) b0 b1 b2 acc (ix2 r n) = acc (ix2 r n) + ∑ k ∈ range 1024, blockTerm b0 b1 b2 r n k := by
  have e : ∑ k ∈ range 1024, blockTerm b0 b1 b2 r n k
      = ∑ g ∈ range 8, ∑ j ∈ range 128, blockTerm b0 b1 b2 r n (g * 128 + j) := sum_range_blocks _ 128 8
  rw [e, sum_range_eight, body_eq, shapeCast_self]
  simp only [addf_apply]
  rw [grp_apply 0 (by norm_num) b0 b1 b2 h0 h2, grp_apply 1 (by norm_num) b0 b1 b2 h0 h2,
    grp_apply 2 (by norm_num) b0 b1 b2 h0 h2, grp_apply 3 (by norm_num) b0 b1 b2 h0 h2,
    grp_apply 4 (by norm_num) b0 b1 b2 h0 h2, grp_apply 5 (by norm_num) b0 b1 b2 h0 h2,
    grp_apply 6 (by norm_num) b0 b1 b2 h0 h2, grp_apply 7 (by norm_num) b0 b1 b2 h0 h2]
  simp only [add_assoc]

end Cert.KernelIdeal.Body

end
-- ==== Proof.Pieces.lean ====
/-
  What each control case of the body leaves behind, as the body's function of what it loaded.

  The accumulator scratch is stored whole once per grid point, with the body's value over the three input blocks and the
  accumulator it loaded: the zero block at the first point of a K sweep (the body has just stored it), what the point
  before left otherwise. At the last point of a sweep the output's staging buffer receives a copy of that same value.
-/
import proofs.«402976_j86766929313858_3_alg».proof.Proof.Gen.KernelIdeal.Frame
import proofs.«402976_j86766929313858_3_alg».proof.Proof.Body

set_option maxRecDepth 16384

noncomputable section

namespace Cert.KernelIdeal.Pieces

open Cert.KernelIdeal Cert.KernelIdeal.Gen Cert.KernelIdeal.Body
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The zero block the first point of a sweep stores into the accumulator. -/
abbrev zero : Vec F S64x2048 .f32 := k0_pay2 (F := F)

/-- A middle point of a sweep: the accumulator ends at the body's value over what the point before left. -/
theorem scratch_B (c : Dev nD) (i : grid0.Coords) (arg2 : Memref sig .tc .vmem S64x1024 .f32) (harg2 : arg2.IsWhole) (arg3 : Memref sig .tc .vmem S128x2048 .i32) (harg3 : arg3.IsWhole) (arg4 : Memref sig .tc .vmem S8x2048 .f32) (harg4 : arg4.IsWhole) (arg5 : Memref sig .tc .vmem S64x2048 .f32) (harg5 : arg5.IsWhole) (arg6 : Memref sig .tc .vmem S64x2048 .f32) (harg6 : arg6.IsWhole) (hc0 : ¬cond0_0 i) (hc1 : ¬cond0_1 i)
    (x0 : Vec F S64x1024 .f32) (x1 : Vec F S128x2048 .i32) (x2 : Vec F S8x2048 .f32) (xs0 : Vec F S64x2048 .f32) :
    sout0_B_0 c i arg2 harg2 arg3 harg3 arg4 harg4 arg5 harg5 arg6 harg6 hc0 hc1 x0 x1 x2 xs0 = body x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  unfold body
  simp only [View.readAt_eq_ld, harg2.read_unread, harg3.read_unread, harg4.read_unread, harg6.read_unread,
    View.ld_unit_zero (S := S64x1024) hz, View.ld_unit_zero (S := S128x2048) hz, View.ld_unit_zero (S := S8x2048) hz,
    View.ld_unit_zero (S := S64x2048) hz]

/-- The last point of a sweep: the accumulator likewise, -/
theorem scratch_C (c : Dev nD) (i : grid0.Coords) (arg2 : Memref sig .tc .vmem S64x1024 .f32) (harg2 : arg2.IsWhole) (arg3 : Memref sig .tc .vmem S128x2048 .i32) (harg3 : arg3.IsWhole) (arg4 : Memref sig .tc .vmem S8x2048 .f32) (harg4 : arg4.IsWhole) (arg5 : Memref sig .tc .vmem S64x2048 .f32) (harg5 : arg5.IsWhole) (arg6 : Memref sig .tc .vmem S64x2048 .f32) (harg6 : arg6.IsWhole) (hc0 : ¬cond0_0 i) (hc1 : cond0_1 i)
    (x0 : Vec F S64x1024 .f32) (x1 : Vec F S128x2048 .i32) (x2 : Vec F S8x2048 .f32) (xs0 : Vec F S64x2048 .f32) :
    sout0_C_0 c i arg2 harg2 arg3 harg3 arg4 harg4 arg5 harg5 arg6 harg6 hc0 hc1 x0 x1 x2 xs0 = body x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  unfold body
  simp only [View.readAt_eq_ld, harg2.read_unread, harg3.read_unread, harg4.read_unread, harg6.read_unread,
    View.ld_unit_zero (S := S64x1024) hz, View.ld_unit_zero (S := S128x2048) hz, View.ld_unit_zero (S := S8x2048) hz,
    View.ld_unit_zero (S := S64x2048) hz]

/-- and the output's staging buffer receives the accumulator just stored, read back. -/
theorem out_C (c : Dev nD) (i : grid0.Coords) (arg2 : Memref sig .tc .vmem S64x1024 .f32) (harg2 : arg2.IsWhole) (arg3 : Memref sig .tc .vmem S128x2048 .i32) (harg3 : arg3.IsWhole) (arg4 : Memref sig .tc .vmem S8x2048 .f32) (harg4 : arg4.IsWhole) (arg5 : Memref sig .tc .vmem S64x2048 .f32) (harg5 : arg5.IsWhole) (arg6 : Memref sig .tc .vmem S64x2048 .f32) (harg6 : arg6.IsWhole) (hc0 : ¬cond0_0 i) (hc1 : cond0_1 i)
    (x0 : Vec F S64x1024 .f32) (x1 : Vec F S128x2048 .i32) (x2 : Vec F S8x2048 .f32) (xs0 : Vec F S64x2048 .f32) :
    out0_C_3 c i arg2 harg2 arg3 harg3 arg4 harg4 arg5 harg5 arg6 harg6 hc0 hc1 x0 x1 x2 xs0 = body x0 x1 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S64x2048) _ hz]
  unfold body
  simp only [View.readAt_eq_ld, harg2.read_unread, harg3.read_unread, harg4.read_unread, harg6.read_unread,
    View.ld_unit_zero (S := S64x1024) hz, View.ld_unit_zero (S := S128x2048) hz, View.ld_unit_zero (S := S8x2048) hz,
    View.ld_unit_zero (S := S64x2048) hz]

/-- The first point of a sweep: the body stores the zero block, loads it back as its accumulator, and stores its value. -/
theorem scratch_A (c : Dev nD) (i : grid0.Coords) (arg2 : Memref sig .tc .vmem S64x1024 .f32) (harg2 : arg2.IsWhole) (arg3 : Memref sig .tc .vmem S128x2048 .i32) (harg3 : arg3.IsWhole) (arg4 : Memref sig .tc .vmem S8x2048 .f32) (harg4 : arg4.IsWhole) (arg5 : Memref sig .tc .vmem S64x2048 .f32) (harg5 : arg5.IsWhole) (arg6 : Memref sig .tc .vmem S64x2048 .f32) (harg6 : arg6.IsWhole) (hc0 : cond0_0 i) (hc1 : ¬cond0_1 i)
    (x0 : Vec F S64x1024 .f32) (x1 : Vec F S128x2048 .i32) (x2 : Vec F S8x2048 .f32) :
    sout0_A_0 c i arg2 harg2 arg3 harg3 arg4 harg4 arg5 harg5 arg6 harg6 hc0 hc1 x0 x1 x2 = body x0 x1 x2 zero := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S64x2048) hz, View.readCov_unit_zero (S := S64x2048) _ hz]
  unfold body
  simp only [View.readAt_eq_ld, harg2.read_unread, harg3.read_unread, harg4.read_unread,
    View.ld_unit_zero (S := S64x1024) hz, View.ld_unit_zero (S := S128x2048) hz, View.ld_unit_zero (S := S8x2048) hz,
    View.ld_unit_zero (S := S64x2048) hz]

end Cert.KernelIdeal.Pieces

end
-- ==== Proof.Spec.lean ====
/-
  The specification: what both programs compute, entry by entry.

  x is [64, 8192]; B packs the 8192 × 8192 weights eight 4-bit fields a word ([1024, 8192]: weight row k is field
  k % 8 of word row k / 8, its value minus 8); s holds one scale per group of 128 weight rows ([64, 8192]). Entry
  (r, n) of the result is the sum over the 8192 weight rows k of x(r, k) · (w(k, n) · s(k / 128, n)).
-/
import proofs.«402976_j86766929313858_3_alg».proof.Proof.Nibble
import Idealize.ShloMosaic.Lib.ValueIdx

noncomputable section

namespace Cert.Spec

open Idealize.ShloMosaic Idealize.ShloMosaic.ValueIdx Cert.Nibble
open Finset

/-- Weight row k's term of entry (r, n): x(r, k) · (w(k, n) · s(k / 128, n)); the row k and the column n are naturals,
    reduced into the arrays' extents, so that the term is defined at every k and n. -/
def term (a0 : (⟨2, ![64, 8192]⟩ : Shape).Idx → EReal) (a1 : (⟨2, ![1024, 8192]⟩ : Shape).Idx → BitVec 32)
    (a2 : (⟨2, ![64, 8192]⟩ : Shape).Idx → EReal) (r : Fin 64) (n : ℕ) (k : ℕ) : EReal :=
  a0 (ix2 r ⟨k % 8192, Nat.mod_lt _ (by norm_num)⟩)
    * (((nibr (a1 (ix2 ⟨k / 8 % 1024, Nat.mod_lt _ (by norm_num)⟩ ⟨n % 8192, Nat.mod_lt _ (by norm_num)⟩)) (k % 8) : ℝ) : EReal)
      * a2 (ix2 ⟨k / 128 % 64, Nat.mod_lt _ (by norm_num)⟩ ⟨n % 8192, Nat.mod_lt _ (by norm_num)⟩))

/-- The result array. -/
def G (a0 : (⟨2, ![64, 8192]⟩ : Shape).Idx → EReal) (a1 : (⟨2, ![1024, 8192]⟩ : Shape).Idx → BitVec 32)
    (a2 : (⟨2, ![64, 8192]⟩ : Shape).Idx → EReal) : (⟨2, ![64, 8192]⟩ : Shape).Idx → EReal :=
  fun i => ∑ k ∈ range 8192, term a0 a1 a2 (i 0) (i 1).val k

end Cert.Spec

end
-- ==== Proof.Accum.lean ====
/-
  The accumulator across a K sweep.

  The grid is 4 column blocks by 8 row blocks, the row-block axis innermost: point t works on column block t / 8 and
  row block t % 8. Its x block is columns 1024·(t % 8) … of x, its word block rows 128·(t % 8) … and columns
  2048·(t / 8) … of B, its scale block rows 8·(t % 8) … and the same columns of s. So the 1024 terms the body adds at
  point t are the terms of weight rows 1024·(t % 8) … 1024·(t % 8) + 1023 of the specification, and after point t the
  accumulator holds, at (r, n), the partial sum over the first 1024·(t % 8 + 1) weight rows for column 2048·(t / 8) + n.
-/
import proofs.«402976_j86766929313858_3_alg».proof.Proof.Gen.KernelIdeal.Value
import proofs.«402976_j86766929313858_3_alg».proof.Proof.Pieces
import proofs.«402976_j86766929313858_3_alg».proof.Proof.Spec

set_option maxRecDepth 16384

noncomputable section

namespace Cert.KernelIdeal.Accum

open Cert.KernelIdeal Cert.KernelIdeal.Gen Cert.KernelIdeal.Body Cert.KernelIdeal.Pieces
open Idealize.ShloMosaic Idealize.ShloMosaic.TcCoe Idealize.ShloMosaic.ValueIdx Idealize.SL.Sem
open Cert.Spec Cert.LibReal Cert.Nibble
open Finset

variable (m : (ℓ : Loc nD τ sig) → Buf (Elt Ideal) ℓ)

/-- The three argument arrays as the region finds them, and a point's three input blocks, at their literal types. -/
abbrev xarr (c : Dev nD) : Vec Ideal S64x8192 .f32 := V m c main_arg0
abbrev warr (c : Dev nD) : Vec Ideal S1024x8192 .i32 := V m c main_arg1
abbrev sarr (c : Dev nD) : Vec Ideal S64x8192 .f32 := V m c main_arg2
abbrev xblk (c : Dev nD) (t : Fin cfg0.N) : Vec Ideal S64x1024 .f32 := iblk m c 0 t
abbrev wblk (c : Dev nD) (t : Fin cfg0.N) : Vec Ideal S128x2048 .i32 := iblk m c 1 t
abbrev sblk (c : Dev nD) (t : Fin cfg0.N) : Vec Ideal S8x2048 .f32 := iblk m c 2 t

/-- The printed index maps over the grid: which block of each array point t works on. -/
theorem idx_facts : ∀ t : Fin cfg0.N, win0_0.index t (0 : Fin 2) = 0 ∧ win0_0.index t (1 : Fin 2) = t.val % 8
    ∧ win0_1.index t (0 : Fin 2) = t.val % 8 ∧ win0_1.index t (1 : Fin 2) = t.val / 8
    ∧ win0_2.index t (0 : Fin 2) = t.val % 8 ∧ win0_2.index t (1 : Fin 2) = t.val / 8
    ∧ win0_3.index t (0 : Fin 2) = 0 ∧ win0_3.index t (1 : Fin 2) = t.val / 8 :=
  (by decide +kernel : ∀ t : Fin grid0.N, _)

/-- The x block of point t: columns 1024·(t % 8) … of x. -/
theorem xblk_apply (c : Dev nD) (t : Fin cfg0.N) (r : Fin 64) (kk : Fin 1024) :
    xblk m c t (ix2 r kk) = xarr m c (ix2 r ⟨t.val % 8 * 1024 + kk.val, by omega⟩) := by
  obtain ⟨e0, e1, -⟩ := idx_facts t
  have h : ((cfg0.win 0).blk t).view.emb (ix2 r kk) = ix2 r ⟨t.val % 8 * 1024 + kk.val, by omega⟩ := by
    funext a; apply Fin.ext
    match a with
    | ⟨0, _⟩ => show win0_0.index t (0 : Fin 2) * 64 + 1 * r.val = r.val; omega
    | ⟨1, _⟩ => show win0_0.index t (1 : Fin 2) * 1024 + 1 * kk.val = t.val % 8 * 1024 + kk.val; omega
  show V m c main_arg0 (((cfg0.win 0).blk t).view.emb (ix2 r kk)) = V m c main_arg0 _
  rw [h]

/-- The word block of point t: rows 128·(t % 8) …, columns 2048·(t / 8) … of B. -/
theorem wblk_apply (c : Dev nD) (t : Fin cfg0.N) (p : Fin 128) (n : Fin 2048) :
    wblk m c t (ix2 p n) = warr m c (ix2 ⟨t.val % 8 * 128 + p.val, by omega⟩
      ⟨t.val / 8 * 2048 + n.val, by have := lt_of_lt_of_eq t.isLt (show cfg0.N = 32 from N_0); omega⟩) := by
  obtain ⟨-, -, e0, e1, -⟩ := idx_facts t
  have h : ((cfg0.win 1).blk t).view.emb (ix2 p n) = ix2 ⟨t.val % 8 * 128 + p.val, by omega⟩
      ⟨t.val / 8 * 2048 + n.val, by have := lt_of_lt_of_eq t.isLt (show cfg0.N = 32 from N_0); omega⟩ := by
    funext a; apply Fin.ext
    match a with
    | ⟨0, _⟩ => show win0_1.index t (0 : Fin 2) * 128 + 1 * p.val = t.val % 8 * 128 + p.val; omega
    | ⟨1, _⟩ => show win0_1.index t (1 : Fin 2) * 2048 + 1 * n.val = t.val / 8 * 2048 + n.val; omega
  show V m c main_arg1 (((cfg0.win 1).blk t).view.emb (ix2 p n)) = V m c main_arg1 _
  rw [h]

/-- The scale block of point t: rows 8·(t % 8) …, columns 2048·(t / 8) … of s. -/
theorem sblk_apply (c : Dev nD) (t : Fin cfg0.N) (g : Fin 8) (n : Fin 2048) :
    sblk m c t (ix2 g n) = sarr m c (ix2 ⟨t.val % 8 * 8 + g.val, by omega⟩
      ⟨t.val / 8 * 2048 + n.val, by have := lt_of_lt_of_eq t.isLt (show cfg0.N = 32 from N_0); omega⟩) := by
  obtain ⟨-, -, -, -, e0, e1, -⟩ := idx_facts t
  have h : ((cfg0.win 2).blk t).view.emb (ix2 g n) = ix2 ⟨t.val % 8 * 8 + g.val, by omega⟩
      ⟨t.val / 8 * 2048 + n.val, by have := lt_of_lt_of_eq t.isLt (show cfg0.N = 32 from N_0); omega⟩ := by
    funext a; apply Fin.ext
    match a with
    | ⟨0, _⟩ => show win0_2.index t (0 : Fin 2) * 8 + 1 * g.val = t.val % 8 * 8 + g.val; omega
    | ⟨1, _⟩ => show win0_2.index t (1 : Fin 2) * 2048 + 1 * n.val = t.val / 8 * 2048 + n.val; omega
  show V m c main_arg2 (((cfg0.win 2).blk t).view.emb (ix2 g n)) = V m c main_arg2 _
  rw [h]

/-- Row kk of point t's block is weight row 1024·(t % 8) + kk of the specification, at column 2048·(t / 8) + n. -/
theorem blockTerm_eq (c : Dev nD) (t : Fin cfg0.N) (r : Fin 64) (n : Fin 2048) (kk : ℕ) (hkk : kk < 1024) :
    blockTerm (xblk m c t) (wblk m c t) (sblk m c t) r n kk
      = term (xarr m c) (warr m c) (sarr m c) r (t.val / 8 * 2048 + n.val) (t.val % 8 * 1024 + kk) := by
  have hN : t.val < 32 := lt_of_lt_of_eq t.isLt (show cfg0.N = 32 from N_0)
  have a1 : (t.val % 8 * 1024 + kk) % 8192 = t.val % 8 * 1024 + kk % 1024 := by omega
  have a2 : (t.val % 8 * 1024 + kk) / 8 % 1024 = t.val % 8 * 128 + kk / 8 % 128 := by omega
  have a3 : (t.val % 8 * 1024 + kk) % 8 = kk % 8 := by omega
  have a4 : (t.val % 8 * 1024 + kk) / 128 % 64 = t.val % 8 * 8 + kk / 128 % 8 := by omega
  have a5 : (t.val / 8 * 2048 + n.val) % 8192 = t.val / 8 * 2048 + n.val := by have := n.isLt; omega
  unfold blockTerm term
  rw [xblk_apply, wblk_apply, sblk_apply]
  simp only [a1, a2, a3, a4, a5]

/-! ## One point, and the sweep -/

/-- The zero block is zero. -/
theorem zero_apply (r : Fin 64) (n : Fin 2048) : (zero (F := Ideal)) (ix2 r n) = 0 := by
  unfold zero k0_pay2
  rw [shapeCast_self]
  exact Ideal.ofBits_zero_f32

section Sweep
variable (hx : ∀ c i, IsReal (xarr m c i)) (hs : ∀ c i, IsReal (sarr m c i))
include hx hs

theorem xblk_real (c : Dev nD) (t : Fin cfg0.N) (y : S64x1024.Idx) : IsReal (xblk m c t y) := by
  obtain ⟨r, kk, rfl⟩ : ∃ (r : Fin 64) (kk : Fin 1024), y = ix2 r kk := ⟨y 0, y 1, eq_ix2 y⟩
  rw [xblk_apply]; exact hx c _

theorem sblk_real (c : Dev nD) (t : Fin cfg0.N) (y : S8x2048.Idx) : IsReal (sblk m c t y) := by
  obtain ⟨g, n, rfl⟩ : ∃ (g : Fin 8) (n : Fin 2048), y = ix2 g n := ⟨y 0, y 1, eq_ix2 y⟩
  rw [sblk_apply]; exact hs c _

/-- ONE POINT: the body at point t adds, at (r, n), the terms of weight rows 1024·(t % 8) … 1024·(t % 8) + 1023 for
    column 2048·(t / 8) + n onto the accumulator it loaded. -/
theorem step (c : Dev nD) (t : Fin cfg0.N) (acc : Vec Ideal S64x2048 .f32) (r : Fin 64) (n : Fin 2048) :
    body (F := Ideal) (xblk m c t) (wblk m c t) (sblk m c t) acc (ix2 r n)
      = acc (ix2 r n) + ∑ kk ∈ range 1024,
          term (xarr m c) (warr m c) (sarr m c) r (t.val / 8 * 2048 + n.val) (t.val % 8 * 1024 + kk) := by
  rw [body_apply _ _ _ _ (xblk_real m hx hs c t) (sblk_real m hx hs c t)]
  exact congrArg (acc (ix2 r n) + ·)
    (Finset.sum_congr rfl fun kk hkk => blockTerm_eq m c t r n kk (Finset.mem_range.mp hkk))

/-- THE SWEEP: after point t the accumulator holds, at (r, n), the partial sum over the first 1024·(t % 8 + 1) weight
    rows for column 2048·(t / 8) + n — by induction on the point; the first point of a sweep starts from the zero block,
    every other point from what the point before left. -/
theorem scratch_after (c : Dev nD) : ∀ (N : ℕ) (t : Fin cfg0.N), t.val = N → ∀ (r : Fin 64) (n : Fin 2048),
    (outsAt0 m c t.val t.isLt).2 (ix2 r n)
      = ∑ k ∈ range ((t.val % 8 + 1) * 1024), term (xarr m c) (warr m c) (sarr m c) r (t.val / 8 * 2048 + n.val) k := by
  intro N
  induction N using Nat.strong_induction_on with
  | _ N ih =>
    intro t ht r n
    have hN : t.val < 32 := lt_of_lt_of_eq t.isLt (show cfg0.N = 32 from N_0)
    have split : ∑ k ∈ range ((t.val % 8 + 1) * 1024), term (xarr m c) (warr m c) (sarr m c) r (t.val / 8 * 2048 + n.val) k
        = ∑ k ∈ range (t.val % 8 * 1024), term (xarr m c) (warr m c) (sarr m c) r (t.val / 8 * 2048 + n.val) k
          + ∑ kk ∈ range 1024, term (xarr m c) (warr m c) (sarr m c) r (t.val / 8 * 2048 + n.val) (t.val % 8 * 1024 + kk) := by
      rw [Nat.add_mul, Nat.one_mul, Finset.sum_range_add]
    rw [split]
    by_cases h0 : t.val % 8 = 0
    · have h1 : ¬ t.val % 8 = 7 := by omega
      rw [outsAt0_A m c t h0 h1]
      dsimp only
      rw [scratch_A (F := Ideal) c (grid0.coords t) (ms0_0 t) (hs0_0 t) (ms0_1 t) (hs0_1 t) (ms0_2 t) (hs0_2 t) (ms0_3 t) (hs0_3 t)
        scM0_0 (Memref.isWhole_whole _) ((hcond0_0 t).mpr h0) (fun h => h1 ((hcond0_1 t).mp h))
        (iblk m c 0 t) (iblk m c 1 t) (iblk m c 2 t)]
      refine (step m hx hs c t zero r n).trans ?_
      rw [zero_apply, h0, Nat.zero_mul, Finset.sum_range_zero]
    · have ih' : (outsAt0 m c (t.val - 1) (Nat.lt_of_le_of_lt (Nat.sub_le _ _) t.isLt)).2 (ix2 r n)
          = ∑ k ∈ range (((t.val - 1) % 8 + 1) * 1024),
              term (xarr m c) (warr m c) (sarr m c) r ((t.val - 1) / 8 * 2048 + n.val) k :=
        ih (t.val - 1) (by omega) ⟨t.val - 1, by omega⟩ rfl r n
      rw [show (t.val - 1) % 8 + 1 = t.val % 8 by omega, show (t.val - 1) / 8 = t.val / 8 by omega] at ih'
      by_cases h1 : t.val % 8 = 7
      · rw [outsAt0_C m c t h0 h1]
        dsimp only
        rw [scratch_C (F := Ideal) c (grid0.coords t) (ms0_0 t) (hs0_0 t) (ms0_1 t) (hs0_1 t) (ms0_2 t) (hs0_2 t) (ms0_3 t) (hs0_3 t)
          scM0_0 (Memref.isWhole_whole _) (fun h => h0 ((hcond0_0 t).mp h)) ((hcond0_1 t).mpr h1)
          (iblk m c 0 t) (iblk m c 1 t) (iblk m c 2 t)
          (outsAt0 m c (t.val - 1) (Nat.lt_of_le_of_lt (Nat.sub_le _ _) t.isLt)).2]
        refine (step m hx hs c t _ r n).trans ?_
        rw [ih']
      · rw [outsAt0_B m c t h0 h1]
        dsimp only
        rw [scratch_B (F := Ideal) c (grid0.coords t) (ms0_0 t) (hs0_0 t) (ms0_1 t) (hs0_1 t) (ms0_2 t) (hs0_2 t) (ms0_3 t) (hs0_3 t)
          scM0_0 (Memref.isWhole_whole _) (fun h => h0 ((hcond0_0 t).mp h)) (fun h => h1 ((hcond0_1 t).mp h))
          (iblk m c 0 t) (iblk m c 1 t) (iblk m c 2 t)
          (outsAt0 m c (t.val - 1) (Nat.lt_of_le_of_lt (Nat.sub_le _ _) t.isLt)).2]
        refine (step m hx hs c t _ r n).trans ?_
        rw [ih']

/-- At the last point of a sweep the output's staging buffer holds, at (r, n), the whole sum for column 2048·(t / 8) + n:
    the body copies the accumulator it has just stored. -/
theorem out_last (c : Dev nD) (t : Fin cfg0.N) (h1 : t.val % 8 = 7) (r : Fin 64) (n : Fin 2048) :
    (outsAt0 m c t.val t.isLt).1 (ix2 r n)
      = ∑ k ∈ range 8192, term (xarr m c) (warr m c) (sarr m c) r (t.val / 8 * 2048 + n.val) k := by
  have h0 : ¬ t.val % 8 = 0 := by omega
  have e : (outsAt0 m c t.val t.isLt).1 = (outsAt0 m c t.val t.isLt).2 := by
    rw [outsAt0_C m c t h0 h1]
    dsimp only
    rw [out_C (F := Ideal) c (grid0.coords t) (ms0_0 t) (hs0_0 t) (ms0_1 t) (hs0_1 t) (ms0_2 t) (hs0_2 t) (ms0_3 t) (hs0_3 t)
        scM0_0 (Memref.isWhole_whole _) (fun h => h0 ((hcond0_0 t).mp h)) ((hcond0_1 t).mpr h1)
        (iblk m c 0 t) (iblk m c 1 t) (iblk m c 2 t)
        (outsAt0 m c (t.val - 1) (Nat.lt_of_le_of_lt (Nat.sub_le _ _) t.isLt)).2,
      scratch_C (F := Ideal) c (grid0.coords t) (ms0_0 t) (hs0_0 t) (ms0_1 t) (hs0_1 t) (ms0_2 t) (hs0_2 t) (ms0_3 t) (hs0_3 t)
        scM0_0 (Memref.isWhole_whole _) (fun h => h0 ((hcond0_0 t).mp h)) ((hcond0_1 t).mpr h1)
        (iblk m c 0 t) (iblk m c 1 t) (iblk m c 2 t)
        (outsAt0 m c (t.val - 1) (Nat.lt_of_le_of_lt (Nat.sub_le _ _) t.isLt)).2]
  rw [e, scratch_after m hx hs c t.val t rfl r n, h1]

end Sweep

end Cert.KernelIdeal.Accum

end
-- ==== Proof.Final.lean ====
/-
  From the blocks to the whole result array, and the kernel's run.

  The output's block for column block q is written back once, after the last point of q's sweep (point 8q + 7), when its
  staging buffer holds the whole sums for columns 2048q … 2048q + 2047. The four blocks tile the [64, 8192] array, so
  after the run the array is the specification's function of the three argument arrays.
-/
import proofs.«402976_j86766929313858_3_alg».proof.Proof.Accum

set_option maxRecDepth 16384

noncomputable section

namespace Cert.KernelIdeal.Final

open Cert.KernelIdeal Cert.KernelIdeal.Gen Cert.KernelIdeal.Body Cert.KernelIdeal.Pieces Cert.KernelIdeal.Accum
open Idealize.ShloMosaic Idealize.ShloMosaic.TcCoe Idealize.ShloMosaic.ValueIdx Idealize.SL.Sem
open Idealize.ShloMosaic.Pipeline (Dat)
open Cert.Spec Cert.LibReal
open Finset

variable (m : (ℓ : Loc nD τ sig) → Buf (Elt Ideal) ℓ) (ρ : Dev nD → PrngReg)

/-- The output's block is written back exactly after the last point of a sweep. -/
theorem flush_iff : ∀ t : Fin cfg0.N, (cfg0.win 3).flush t = true ↔ t.val % 8 = 7 :=
  (by decide +kernel : ∀ t : Fin grid0.N, _)

/-- An index of the result array is in point t's block iff each coordinate is in the block's range on its axis. -/
theorem mem_blk (t : Fin cfg0.N) (i : S64x8192.Idx) :
    i ∈ ((cfg0.win 3).blk t).view.set ↔ ∀ a : Fin 2, win0_3.index t a * S64x2048.size a ≤ (i a).val
      ∧ (i a).val < win0_3.index t a * S64x2048.size a + S64x2048.size a := by
  show i ∈ ((View.whole main_v0).slice (win0_3.rect t)).set ↔ _
  rw [View.set_slice_whole, Rect.mem_set_unit]
  exact Iff.rfl

section Real
variable (hx : ∀ c i, IsReal (xarr m c i)) (hs : ∀ c i, IsReal (sarr m c i))
include hx hs

/-- What a flushing point writes back is its block of the specification's array. -/
theorem flushed_eq (c : Dev nD) (t : Fin cfg0.N) (hf : (cfg0.win 3).flush t = true) :
    (dats m 0 c).flushed 3 t = ((cfg0.win 3).blk t).view.read (Elt Ideal) (G (xarr m c) (warr m c) (sarr m c)) := by
  have h1 : t.val % 8 = 7 := (flush_iff t).mp hf
  have hN : t.val < 32 := lt_of_lt_of_eq t.isLt (show cfg0.N = 32 from N_0)
  obtain ⟨-, -, -, -, -, -, e0, e1⟩ := idx_facts t
  rw [Value.flushed3]
  funext j
  show (outsAt0 m c t.val t.isLt).1 j = G (xarr m c) (warr m c) (sarr m c) (((cfg0.win 3).blk t).view.emb j)
  obtain ⟨r, n, rfl⟩ : ∃ (r : Fin 64) (n : Fin 2048), j = ix2 r n := ⟨j 0, j 1, eq_ix2 j⟩
  have h : ((cfg0.win 3).blk t).view.emb (ix2 r n) = ix2 r ⟨t.val / 8 * 2048 + n.val, by omega⟩ := by
    funext a; apply Fin.ext
    match a with
    | ⟨0, _⟩ => show win0_3.index t (0 : Fin 2) * 64 + 1 * r.val = r.val; omega
    | ⟨1, _⟩ => show win0_3.index t (1 : Fin 2) * 2048 + 1 * n.val = t.val / 8 * 2048 + n.val; omega
  rw [h, out_last m hx hs c t h1 r n]
  rfl

/-- Every index of the result array is in the block of the last point of its column block's sweep. -/
theorem cover (i : S64x8192.Idx) :
    ∃ t : Fin cfg0.N, (cfg0.win 3).flush t = true ∧ i ∈ ((cfg0.win 3).blk t).view.set := by
  have hi0 : (i 0).val < 64 := (i 0).isLt
  have hi1 : (i 1).val < 8192 := (i 1).isLt
  have hb : (i 1).val / 2048 * 8 + 7 < cfg0.N :=
    lt_of_lt_of_eq (show (i 1).val / 2048 * 8 + 7 < 32 by omega) N_0.symm
  obtain ⟨t, ht⟩ : ∃ t : Fin cfg0.N, t.val = (i 1).val / 2048 * 8 + 7 := ⟨⟨_, hb⟩, rfl⟩
  obtain ⟨-, -, -, -, -, -, e0, e1⟩ := idx_facts t
  refine ⟨t, (flush_iff t).mpr (by omega), ?_⟩
  rw [mem_blk]
  intro a
  match a with
  | ⟨0, _⟩ =>
    show win0_3.index t (0 : Fin 2) * 64 ≤ (i 0).val ∧ (i 0).val < win0_3.index t (0 : Fin 2) * 64 + 64
    omega
  | ⟨1, _⟩ =>
    show win0_3.index t (1 : Fin 2) * 2048 ≤ (i 1).val ∧ (i 1).val < win0_3.index t (1 : Fin 2) * 2048 + 2048
    omega

/-- The result array after the run. -/
theorem final (c : Dev nD) : (dats m 0 c).arrAt 3 cfg0.N = G (xarr m c) (warr m c) (sarr m c) :=
  (dats m 0 c).arrAt_eq_of_cover 3 (G (xarr m c) (warr m c) (sarr m c)) (fun t hf => flushed_eq m hx hs c t hf)
    (cover m hx hs)

/-- THE KERNEL'S RUN, read: every weakly fair execution ends with the result array at the specification's function of
    the three argument arrays, and the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m hx hs c), (h c).2⟩) (Value.run_blocks m ρ)

end Real

end Cert.KernelIdeal.Final

end
-- ==== Proof.RefValue.lean ====
/-
  The reference's operations compose to the specification's sum.

  The reference shifts each packed word by 0, 4, …, 28 and masks with 15 (a [1024, 8, 8192] array of fields), flattens it
  to [8192, 8192] (field q of word row p becomes weight row 8p + q), converts to float and subtracts 8, views the rows in
  64 groups of 128 to multiply each group by its scale row, flattens back, and contracts with x over the 8192 weight
  rows. Read at entry (r, n), weight row k: the word is B(k / 8, n), the field k % 8, the scale s(k / 128, n).
-/
import proofs.«402976_j86766929313858_3_alg».proof.Proof.Gen.ReferenceIdeal.Read
import proofs.«402976_j86766929313858_3_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Nibble Cert.Spec
open Finset

/-- The reference's result array is the specification's function of its three arguments: term by term over the
    contracted weight row, each layout operation read at the index it moves to. -/
theorem ref_eq (x0 : (⟨S64x8192, .f32⟩ : BufTy).Contents (Elt Ideal)) (x1 : (⟨S1024x8192, .i32⟩ : BufTy).Contents (Elt Ideal))
    (x2 : (⟨S64x8192, .f32⟩ : BufTy).Contents (Elt Ideal)) :
    val_main_v19 (F := Ideal) x0 x1 x2 = G x0 x1 x2 := by
  funext i
  rw [val_main_v19_apply]
  unfold G
  rw [← Fin.sum_univ_eq_sum_range (fun k => term x0 x1 x2 (i 0) (i 1).val k) 8192]
  refine Finset.sum_congr rfl fun k _ => ?_
  rw [val_main_v18_apply, val_main_v17_apply, val_main_v14_apply, val_main_v13_apply, val_main_v11_apply, val_main_v10_apply,
    val_main_v9_apply, val_main_v7_apply, val_main_v5_apply, val_main_v3_apply, val_main_v6_apply, val_main_v4_apply,
    val_main_v2_apply, val_main_v0_apply, val_main_v1_apply, val_main_c_apply, val_main_v8_apply, val_main_c_0_apply,
    val_main_v12_apply, val_main_cst_apply, val_main_v16_apply, val_main_v15_apply]
  have hk : k.val < 8192 := k.isLt
  have hn : (i 1).val < 8192 := (i 1).isLt
  have e0 : lidx_main_v19 i k = ix2 (i 0) ⟨k.val % 8192, Nat.mod_lt _ (by norm_num)⟩ := funext fun a => Fin.ext (by
    match a with
    | ⟨0, _⟩ => rfl
    | ⟨1, _⟩ => exact (Nat.mod_eq_of_lt hk).symm)
  have e1 : idx_main_v3 (idx_main_v5 (idx_main_v10 (idx_main_v14 (idx_main_v18 (ridx_main_v19 i k)))))
      = ix2 ⟨k.val / 8 % 1024, Nat.mod_lt _ (by norm_num)⟩ ⟨(i 1).val % 8192, Nat.mod_lt _ (by norm_num)⟩ :=
    funext fun a => Fin.ext (by
      match a with
      | ⟨0, _⟩ => dsimp only [idx_main_v3, idx_main_v5, idx_main_v10, idx_main_v14, idx_main_v18, ridx_main_v19]; omega
      | ⟨1, _⟩ => dsimp only [idx_main_v3, idx_main_v5, idx_main_v10, idx_main_v14, idx_main_v18, ridx_main_v19]; omega)
  have e2 : idx_main_v4 (idx_main_v6 (idx_main_v10 (idx_main_v14 (idx_main_v18 (ridx_main_v19 i k)))))
      = ix1 ⟨k.val % 8, Nat.mod_lt _ (by norm_num)⟩ :=
    funext fun a => Fin.ext (by
      match a with
      | ⟨0, _⟩ => dsimp only [idx_main_v4, idx_main_v6, idx_main_v10, idx_main_v14, idx_main_v18, ridx_main_v19]; omega)
  have e3 : idx_main_v15 (idx_main_v16 (idx_main_v18 (ridx_main_v19 i k)))
      = ix2 ⟨k.val / 128 % 64, Nat.mod_lt _ (by norm_num)⟩ ⟨(i 1).val % 8192, Nat.mod_lt _ (by norm_num)⟩ :=
    funext fun a => Fin.ext (by
      match a with
      | ⟨0, _⟩ => dsimp only [idx_main_v15, idx_main_v16, idx_main_v18, ridx_main_v19]; omega
      | ⟨1, _⟩ => dsimp only [idx_main_v15, idx_main_v16, idx_main_v18, ridx_main_v19]; omega)
  rw [e0, e1, e2, e3, andi_shrsi_eq _ _ _ (Nat.mod_lt _ (by norm_num)), convert_sub]
  rfl

end Cert.ReferenceIdeal.RefValue

end
-- ==== Proof.Finite.lean ====
/-
  The precondition read back: every entry of x and of s is a real.

  The precondition is the conjunction of two tests, one for x and one for s: "all entries have absolute value below +∞",
  each an and-reduce to a scalar. Where the conjunction is 1 both tests are 1, and each makes its array real-valued.
-/
import proofs.«402976_j86766929313858_3_alg».proof.Pre_finite_inputs
import proofs.«402976_j86766929313858_3_alg».proof.Proof.LibReal
import Idealize.ShloMosaic.Lib.Affine

noncomputable section

namespace Cert.Finite

open Idealize.ShloMosaic Idealize.ShloMosaic.ValueIdx Cert.LibReal Cert.Pre_finite_inputs

/-- Where the finiteness test of x, B, s is 1, every entry of x and every entry of s is a real. -/
theorem reals_of_pre [Cert.Pre_finite_inputs.Facts] (a0 : FVec Ideal S64x8192 .f32) (a1 : IVec S1024x8192 32)
    (a2 : FVec Ideal S64x8192 .f32) (h : Cert.Pre_finite_inputs.fn (F := Ideal) a0 a1 a2 = fun _ => 1#1) :
    (∀ i, IsReal (a0 i)) ∧ (∀ i, IsReal (a2 i)) := by
  have h0 := congrFun h ix0
  unfold Cert.Pre_finite_inputs.fn at h0
  dsimp only at h0
  obtain ⟨e0, e2⟩ := IntOp.andi_eq_one.mp h0
  exact ⟨fun i => isReal_of_all a0 _ _ _ e0 i, fun i => isReal_of_all a2 _ _ _ e2 i⟩

end Cert.Finite

end
-- ==== Proof.lean ====
/-
  int4 weight-quantized grouped-scale matrix product: kernel against reference, over the extended reals.

  The reference unpacks the weights — field k % 8 of packed word row k / 8, minus 8 —, scales each group of 128 weight
  rows by its scale, and multiplies: out(r, n) = Σ_k x(r, k) · (w(k, n) · s(k / 128, n)). The kernel sweeps the 8192
  weight rows in 8 blocks of 1024 per column block, accumulating in a scratch; inside a block it forms, per group g,
  (x_g · w_g + (x_g − x_g) · w_g) · s_g, building the weight from its field by a bit pattern (2^23 + field, minus
  2^23 + 8) instead of an integer conversion. On the extended reals the bit pattern and the conversion denote the same
  real (Proof/Nibble.lean); for finite x and s the term with x − x vanishes and the scale distributes over the group's
  sum (Proof/Body.lean) — this is where the precondition is used; the sweep is an induction over the grid points
  (Proof/Accum.lean); the four output blocks tile the result (Proof/Final.lean); the reference's operations compose to
  the same sum (Proof/RefValue.lean).
-/
import proofs.«402976_j86766929313858_3_alg».proof.Defs
import proofs.«402976_j86766929313858_3_alg».proof.Proof.Gen.Kernel
import proofs.«402976_j86766929313858_3_alg».proof.Proof.Gen.Kernel.Skeleton
import proofs.«402976_j86766929313858_3_alg».proof.Proof.Gen.Kernel.Launch
import proofs.«402976_j86766929313858_3_alg».proof.Proof.Gen.Kernel.Points
import proofs.«402976_j86766929313858_3_alg».proof.Proof.Gen.Kernel.Frame
import proofs.«402976_j86766929313858_3_alg».proof.Proof.Gen.KernelIdeal
import proofs.«402976_j86766929313858_3_alg».proof.Proof.Gen.KernelIdeal.Skeleton
import proofs.«402976_j86766929313858_3_alg».proof.Proof.Gen.KernelIdeal.Launch
import proofs.«402976_j86766929313858_3_alg».proof.Proof.Gen.KernelIdeal.Points
import proofs.«402976_j86766929313858_3_alg».proof.Proof.Gen.KernelIdeal.Frame
import proofs.«402976_j86766929313858_3_alg».proof.Proof.Gen.ReferenceIdeal
import proofs.«402976_j86766929313858_3_alg».proof.Proof.Gen.Pre_finite_inputs
import proofs.«402976_j86766929313858_3_alg».proof.Proof.Gen.KernelIdeal.Value
import proofs.«402976_j86766929313858_3_alg».proof.Proof.Gen.ReferenceIdeal.Run
import proofs.«402976_j86766929313858_3_alg».proof.Proof.Gen.ReferenceIdeal.Read
import proofs.«402976_j86766929313858_3_alg».proof.Proof.Final
import proofs.«402976_j86766929313858_3_alg».proof.Proof.RefValue
import proofs.«402976_j86766929313858_3_alg».proof.Proof.Finite
import Idealize.ShloMosaic.Adequacy
import Idealize.ShloMosaic.Init

noncomputable section

namespace Cert.Proof

open Idealize.ShloMosaic Idealize.ShloMosaic.TcCoe Idealize.SL.Sem

/-- The one rewrite of the ideal pass: widening back a narrowed x is x at the ideal instance, the rounding at the
    word-level one. -/
theorem preserves : Cert.preserves_Kernel_KernelIdeal :=
  IdealRules.truncf_extf.statement Cert.KernelIdeal.S64x1024 .f32 .bf16

/-- Both idealized programs end with the specification's array of the (agreeing) arguments: the kernel by its sweep
    over finite x and s, the reference by composing its operations. -/
theorem algebraic : Cert.algebraic_KernelIdeal_ReferenceIdeal
    (hKernelIdeal := Cert.KernelIdeal.Gen.facts) (hReferenceIdeal := Cert.ReferenceIdeal.Gen.facts)
    (hPre_finite_inputs := Cert.Pre_finite_inputs.Gen.facts) := by
  intro m ρ m' ρ' hpre hagree
  have hreal := fun c : Dev Cert.KernelIdeal.nD => Cert.Finite.reals_of_pre _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Final.run m ρ (fun c i => (hreal c).1 i) (fun c i => (hreal c).2 i), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.ref_eq _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  preserves,
  algebraic⟩

end Cert.Proof

end
